-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x12 : Shape := ⟨2, ![65536, 12]⟩
abbrev S1024x1 : Shape := ⟨2, ![1024, 1]⟩
abbrev S1024 : Shape := ⟨1, ![1024]⟩
abbrev S10x1024 : Shape := ⟨2, ![10, 1024]⟩
abbrev S1024x1024 : Shape := ⟨2, ![1024, 1024]⟩
abbrev S2x1024 : Shape := ⟨2, ![2, 1024]⟩
abbrev S2 : Shape := ⟨1, ![2]⟩
abbrev S_ : Shape := ⟨0, ![]⟩

class Facts : Prop where
  bcast_S_S65536x12 : S_.BroadcastsInDim S65536x12 (![] : Fin 0 → Fin S65536x12.rank)
  reducesTo_S65536x12_S_d0_1 : S65536x12.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_
  bcast_S_S10x1024 : S_.BroadcastsInDim S10x1024 (![] : Fin 0 → Fin S10x1024.rank)
  reducesTo_S10x1024_S_d0_1 : S10x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x1024 .f32) (main_arg8 : FVec F S2 .f32) (main_v33 : IVec S_ 1) : IVec S_ 1 :=
  let main_v34 : FVec F S2x1024 .f32 := Host.absf main_arg7
  let main_cst_12 : FVec F S_ .f32 := constant S_ .f32 0x7F800000#32
  let main_v35 : FVec F S2x1024 .f32 := broadcastInDim S2x1024 ![] bcast_S_S2x1024 main_cst_12
  let main_v36 : IVec S2x1024 1 := cmpf .olt main_v34 main_v35
  let main_c_13 : IVec S_ 1 := constantI S_ 1 1#1
  let main_v37 : IVec S_ 1 := (fun x v => Host.reduce IntOp.andi x v reducesTo_S2x1024_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S10x1024 .f32) (main_arg5 : FVec F S1024x1024 .f32) (main_arg6 : FVec F S1024 .f32) (main_arg7 : FVec F S2x1024 .f32) (main_arg8 : FVec F S2 .f32) (main_v13 : IVec S_ 1) (main_v16 : IVec S10x1024 1) : IVec S_ 1 :=
  let main_c_5 : IVec S_ 1 := constantI S_ 1 1#1
  let main_v17 : IVec S_ 1 := (fun x v => Host.reduce IntOp.andi x v reducesTo_S10x1024_S_d0_1 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x12 .f32) (main_arg1 : FVec F S1024x1 .f32) (main_arg2 : FVec F S1024 .f32) (main_arg3 : FVec F S10x1024 .f32) (main_arg4 : FVec F S10x1024 .f32) (main_arg5 : FVec F S1024x1024 .f32) (main_arg6 : FVec F S1024 .f32) (main_arg7 : FVec F S2x1024 .f32) (main_arg8 : FVec F S2 .f32) : IVec S_ 1 :=
  let main_v0 : FVec F S65536x12 .f32 := Host.absf main_arg0
  let main_cst : FVec F S_ .f32 := constant S_ .f32 0x7F800000#32
  let main_v1 : FVec F S65536x12 .f32 := broadcastInDim S65536x12 ![] bcast_S_S65536x12 main_cst
  let main_v2 : IVec S65536x12 1 := cmpf .olt main_v0 main_v1
  let main_c : IVec S_ 1 := constantI S_ 1 1#1
  let main_v3 : IVec S_ 1 := (fun x v => Host.reduce IntOp.andi x v reducesTo_S65536x12_S_d0_1 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S10x1024 .f32 := Host.absf main_arg3
  let main_cst_4 : FVec F S_ .f32 := constant S_ .f32 0x7F800000#32
  let main_v15 : FVec F S10x1024 .f32 := broadcastInDim S10x1024 ![] bcast_S_S10x1024 main_cst_4
  let main_v16 : IVec S10x1024 1 := cmpf .olt main_v14 main_v15
  fn_part1 (F := F) main_arg4 main_arg5 main_arg6 main_arg7 main_arg8 main_v13 main_v16
-- ==== Kernel.lean ====
abbrev S65536x12 : Shape := ⟨2, ![65536, 12]⟩
abbrev S1024x1 : Shape := ⟨2, ![1024, 1]⟩
abbrev S1024 : Shape := ⟨1, ![1024]⟩
abbrev S10x1024 : Shape := ⟨2, ![10, 1024]⟩
abbrev S1024x1024 : Shape := ⟨2, ![1024, 1024]⟩
abbrev S2x1024 : Shape := ⟨2, ![2, 1024]⟩
abbrev S2 : Shape := ⟨1, ![2]⟩
abbrev S1x1024 : Shape := ⟨2, ![1, 1024]⟩
abbrev S1x2 : Shape := ⟨2, ![1, 2]⟩
abbrev S1024x2 : Shape := ⟨2, ![1024, 2]⟩
abbrev S65536x2 : Shape := ⟨2, ![65536, 2]⟩
abbrev S512x12 : Shape := ⟨2, ![512, 12]⟩
abbrev S512x2 : Shape := ⟨2, ![512, 2]⟩
abbrev S512x10 : Shape := ⟨2, ![512, 10]⟩
abbrev S512x1 : Shape := ⟨2, ![512, 1]⟩
abbrev S512x1024 : Shape := ⟨2, ![512, 1024]⟩

abbrev nBuf : Space → Nat
  | .hbm => 21
  | .vmem => 12
  | .smem => 0
  | _ => 0

abbrev bufTy : (tb : Table) → Fin (tcTables nBuf tb) → BufTy
  | .hbm, ⟨0, _⟩ => ⟨S65536x12, .f32⟩
  | .hbm, ⟨1, _⟩ => ⟨S1024x1, .f32⟩
  | .hbm, ⟨2, _⟩ => ⟨S1024, .f32⟩
  | .hbm, ⟨3, _⟩ => ⟨S10x1024, .f32⟩
  | .hbm, ⟨4, _⟩ => ⟨S10x1024, .f32⟩
  | .hbm, ⟨5, _⟩ => ⟨S1024x1024, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x2, .f32⟩
  | .hbm, ⟨14, _⟩ => ⟨S10x1024, .bf16⟩
  | .hbm, ⟨15, _⟩ => ⟨S10x1024, .bf16⟩
  | .hbm, ⟨16, _⟩ => ⟨S1024x1024, .f32⟩
  | .hbm, ⟨17, _⟩ => ⟨S1024x1024, .bf16⟩
  | .hbm, ⟨18, _⟩ => ⟨S1024x2, .f32⟩
  | .hbm, ⟨19, _⟩ => ⟨S1024x2, .bf16⟩
  | .hbm, ⟨20, _⟩ => ⟨S65536x2, .f32⟩
  | .local _ .vmem, ⟨0, _⟩ => ⟨S512x12, .f32⟩
  | .local _ .vmem, ⟨1, _⟩ => ⟨S512x12, .f32⟩
  | .local _ .vmem, ⟨2, _⟩ => ⟨S1x1024, .f32⟩
  | .local _ .vmem, ⟨3, _⟩ => ⟨S1x1024, .f32⟩
  | .local _ .vmem, ⟨4, _⟩ => ⟨S10x1024, .bf16⟩
  | .local _ .vmem, ⟨5, _⟩ => ⟨S10x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x2, .bf16⟩
  | .local _ .vmem, ⟨9, _⟩ => ⟨S1x2, .f32⟩
  | .local _ .vmem, ⟨10, _⟩ => ⟨S512x2, .f32⟩
  | .local _ .vmem, ⟨11, _⟩ => ⟨S512x2, .f32⟩
  | _, _ => ⟨S65536x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1024x1_S1024 : S1024x1.ShapeCasts S1024
  shapeCasts_S1024_S1x1024 : S1024.ShapeCasts S1x1024
  shapeCasts_S2_S1x2 : S2.ShapeCasts S1x2
  bitsLt_bf16_f32 : FTy.bits .bf16 < FTy.bits .f32
  transposes_S1024x1024_S1024x1024_1_0 : S1024x1024.Transposes [1, 0] S1024x1024
  transposes_S2x1024_S1024x2_1_0 : S2x1024.Transposes [1, 0] S1024x2
  inb_S512x12_S512x10_0_0 : ∀ a, (![0, 0] : Fin 2 → Nat) a + S512x10.size a ≤ S512x12.size a
  h_S512x10 : 0 < S512x10.numel
  inb_S512x12_S512x1_0_10 : ∀ a, (![0, 10] : Fin 2 → Nat) a + S512x1.size a ≤ S512x12.size a
  h_S512x1 : 0 < S512x1.numel
  inb_S512x12_S512x1_0_11 : ∀ a, (![0, 11] : Fin 2 → Nat) a + S512x1.size a ≤ S512x12.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  dot_S512x10_S10x1024_S512x1024_1_0_0_1_n_n_wf : DotDims.WF S512x10 S10x1024 S512x1024 [1] [0] [0] [1] [] []
  dot_S512x1024_S1024x1024_S512x1024_1_0_0_1_n_n_wf : DotDims.WF S512x1024 S1024x1024 S512x1024 [1] [0] [0] [1] [] []
  dot_S512x1024_S1024x2_S512x2_1_0_0_1_n_n_wf : DotDims.WF S512x1024 S1024x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x12.size a ≤ S65536x12.size a
  hwx0_0 : ∀ i : grid0.Coords, EltTy.bits .f32 = 32 ∨ (Rect.block (s := S65536x12) S512x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x1024.size a
  hwx0_3 : ∀ i : grid0.Coords, EltTy.bits .bf16 = 32 ∨ (Rect.block (s := S10x1024) S10x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x1024.size a ≤ S10x1024.size a
  hwx0_4 : ∀ i : grid0.Coords, EltTy.bits .bf16 = 32 ∨ (Rect.block (s := S10x1024) S10x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S1024x2.size a
  hwx0_7 : ∀ i : grid0.Coords, EltTy.bits .bf16 = 32 ∨ (Rect.block (s := S1024x2) S1024x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2.size a ≤ S65536x2.size a
  hwx0_9 : ∀ i : grid0.Coords, EltTy.bits .f32 = 32 ∨ (Rect.block (s := S65536x2) S512x2.size (cc0_transform_9 i) (hinb0_9 i)).WholeWords (EltTy.packing .f32)

variable [Facts₀]

def dot_S512x10_S10x1024_S512x1024_1_0_0_1_n_n : DotDims S512x10 S10x1024 S512x1024 where
  lhsContracting := [1]
  rhsContracting := [0]
  lhsNonContracting := [0]
  rhsNonContracting := [1]
  lhsBatch := []
  rhsBatch := []
  wf := dot_S512x10_S10x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2_S512x2_1_0_0_1_n_n : DotDims S512x1024 S1024x2 S512x2 where
  lhsContracting := [1]
  rhsContracting := [0]
  lhsNonContracting := [0]
  rhsNonContracting := [1]
  lhsBatch := []
  rhsBatch := []
  wf := dot_S512x1024_S1024x2_S512x2_1_0_0_1_n_n_wf

abbrev win0_0 : Pipeline.Window sig grid0 :=
  Pipeline.Window.ofSpec (Memref.whole main_arg0) S512x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S10x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x12 : Shape := ⟨2, ![65536, 12]⟩
abbrev S1024x1 : Shape := ⟨2, ![1024, 1]⟩
abbrev S1024 : Shape := ⟨1, ![1024]⟩
abbrev S10x1024 : Shape := ⟨2, ![10, 1024]⟩
abbrev S1024x1024 : Shape := ⟨2, ![1024, 1024]⟩
abbrev S2x1024 : Shape := ⟨2, ![2, 1024]⟩
abbrev S2 : Shape := ⟨1, ![2]⟩
abbrev S65536x10 : Shape := ⟨2, ![65536, 10]⟩
abbrev S65536x1 : Shape := ⟨2, ![65536, 1]⟩
abbrev S1x1024 : Shape := ⟨2, ![1, 1024]⟩
abbrev S65536x1024 : Shape := ⟨2, ![65536, 1024]⟩
abbrev S_ : Shape := ⟨0, ![]⟩
abbrev S1024x2 : Shape := ⟨2, ![1024, 2]⟩
abbrev S65536x2 : Shape := ⟨2, ![65536, 2]⟩
abbrev S1x2 : Shape := ⟨2, ![1, 2]⟩

abbrev nBuf : Space → Nat
  | .hbm => 42
  | .vmem => 0
  | .smem => 0
  | _ => 0

abbrev bufTy : (tb : Table) → Fin (tcTables nBuf tb) → BufTy
  | .hbm, ⟨0, _⟩ => ⟨S65536x12, .f32⟩
  | .hbm, ⟨1, _⟩ => ⟨S1024x1, .f32⟩
  | .hbm, ⟨2, _⟩ => ⟨S1024, .f32⟩
  | .hbm, ⟨3, _⟩ => ⟨S10x1024, .f32⟩
  | .hbm, ⟨4, _⟩ => ⟨S10x1024, .f32⟩
  | .hbm, ⟨5, _⟩ => ⟨S1024x1024, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S65536x10, .f32⟩
  | .hbm, ⟨10, _⟩ => ⟨S65536x1, .f32⟩
  | .hbm, ⟨11, _⟩ => ⟨S65536x1, .f32⟩
  | .hbm, ⟨12, _⟩ => ⟨S1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S1024x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S1024x2, .f32⟩
  | .hbm, ⟨38, _⟩ => ⟨S65536x2, .f32⟩
  | .hbm, ⟨39, _⟩ => ⟨S1x2, .f32⟩
  | .hbm, ⟨40, _⟩ => ⟨S65536x2, .f32⟩
  | .hbm, ⟨41, _⟩ => ⟨S65536x2, .f32⟩
  | _, _ => ⟨S65536x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S65536x12_S65536x10_0_0 : S65536x12.Slices ![0, 0] S65536x10
  slices_S65536x12_S65536x1_0_10 : S65536x12.Slices ![0, 10] S65536x1
  slices_S65536x12_S65536x1_0_11 : S65536x12.Slices ![0, 11] S65536x1
  shapeCasts_S1024x1_S1024 : S1024x1.ShapeCasts S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S1024x1024_S1024x1024_1_0 : S1024x1024.Transposes [1, 0] S1024x1024
  transposes_S2x1024_S1024x2_1_0 : S2x1024.Transposes [1, 0] S1024x2
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x10_S10x1024_S65536x1024_1_0_0_1_n_n_wf : DotDims.WF S65536x10 S10x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x2_S65536x2_1_0_0_1_n_n_wf : DotDims.WF S65536x1024 S1024x2 S65536x2 [1] [0] [0] [1] [] []

variable [Facts₀]

def dot_S65536x10_S10x1024_S65536x1024_1_0_0_1_n_n : DotDims S65536x10 S10x1024 S65536x1024 where
  lhsContracting := [1]
  rhsContracting := [0]
  lhsNonContracting := [0]
  rhsNonContracting := [1]
  lhsBatch := []
  rhsBatch := []
  wf := dot_S65536x10_S10x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x2_S65536x2_1_0_0_1_n_n : DotDims S65536x1024 S1024x2 S65536x2 where
  lhsContracting := [1]
  rhsContracting := [0]
  lhsNonContracting := [0]
  rhsNonContracting := [1]
  lhsBatch := []
  rhsBatch := []
  wf := dot_S65536x1024_S1024x2_S65536x2_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelDots.lean ====
/-
  The kernel's three matrix products, read at an entry.

  Each product contracts the second axis of a 512-row left operand with the first axis of its right operand and starts
  from a zero accumulator, so at row `p` and column `j` it is the plain sum, over the contracted coordinate `a`, of
  `l (p, a) * r (a, j)` on the extended reals. The dimension numbers enter only through which coordinate of each
  operand is the output's and which is the contracted one: four facts per product.
-/
import proofs.«122144_j20744692040155_1_alg».proof.Proof.Gen.KernelIdeal
import proofs.«122144_j20744692040155_1_alg».proof.Proof.LibDot2

noncomputable section

open scoped BigOperators

namespace Cert.KernelIdeal.Dots

open Cert.KernelIdeal Cert.KernelIdeal.Gen Idealize.ShloMosaic Idealize.ShloMosaic.ValueIdx

/-! ### The gate contraction: ten gate weights against a ten-row expert table -/

theorem gate_lhs_0 (i : S512x1024.Idx) (q : dot_S512x10_S10x1024_S512x1024_1_0_0_1_n_n.contr.Idx) :
    (dot_S512x10_S10x1024_S512x1024_1_0_0_1_n_n.lhsIdx i q 0).val = (i 0).val := by
  unfold DotDims.lhsIdx
  rw [dif_neg (show ¬(0 : Fin S512x10.rank) ∈ dot_S512x10_S10x1024_S512x1024_1_0_0_1_n_n.lhsBatch by decide), dif_pos (show (0 : Fin S512x10.rank) ∈ dot_S512x10_S10x1024_S512x1024_1_0_0_1_n_n.lhsNonContracting by decide)]
  rfl
theorem gate_lhs_1 (i : S512x1024.Idx) (q : dot_S512x10_S10x1024_S512x1024_1_0_0_1_n_n.contr.Idx) :
    (dot_S512x10_S10x1024_S512x1024_1_0_0_1_n_n.lhsIdx i q 1).val = (q ⟨0, by decide⟩).val :=
  dot_S512x10_S10x1024_S512x1024_1_0_0_1_n_n.lhsIdx_val_of_single rfl i q
theorem gate_rhs_0 (i : S512x1024.Idx) (q : dot_S512x10_S10x1024_S512x1024_1_0_0_1_n_n.contr.Idx) :
    (dot_S512x10_S10x1024_S512x1024_1_0_0_1_n_n.rhsIdx i q 0).val = (q ⟨0, by decide⟩).val :=
  dot_S512x10_S10x1024_S512x1024_1_0_0_1_n_n.rhsIdx_val_of_single rfl i q
theorem gate_rhs_1 (i : S512x1024.Idx) (q : dot_S512x10_S10x1024_S512x1024_1_0_0_1_n_n.contr.Idx) :
    (dot_S512x10_S10x1024_S512x1024_1_0_0_1_n_n.rhsIdx i q 1).val = (i 1).val := by
  unfold DotDims.rhsIdx
  rw [dif_neg (show ¬(1 : Fin S10x1024.rank) ∈ dot_S512x10_S10x1024_S512x1024_1_0_0_1_n_n.rhsBatch by decide), dif_pos (show (1 : Fin S10x1024.rank) ∈ dot_S512x10_S10x1024_S512x1024_1_0_0_1_n_n.rhsNonContracting by decide)]
  rfl

/-! ### The second layer's contraction over the first layer's 1024 units -/

theorem hid_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem hid_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem hid_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem hid_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ### The result's contraction over the second layer's 1024 units -/

theorem fin_lhs_0 (i : S512x2.Idx) (q : dot_S512x1024_S1024x2_S512x2_1_0_0_1_n_n.contr.Idx) :
    (dot_S512x1024_S1024x2_S512x2_1_0_0_1_n_n.lhsIdx i q 0).val = (i 0).val := by
  unfold DotDims.lhsIdx
  rw [dif_neg (show ¬(0 : Fin S512x1024.rank) ∈ dot_S512x1024_S1024x2_S512x2_1_0_0_1_n_n.lhsBatch by decide), dif_pos (show (0 : Fin S512x1024.rank) ∈ dot_S512x1024_S1024x2_S512x2_1_0_0_1_n_n.lhsNonContracting by decide)]
  rfl
theorem fin_lhs_1 (i : S512x2.Idx) (q : dot_S512x1024_S1024x2_S512x2_1_0_0_1_n_n.contr.Idx) :
    (dot_S512x1024_S1024x2_S512x2_1_0_0_1_n_n.lhsIdx i q 1).val = (q ⟨0, by decide⟩).val :=
  dot_S512x1024_S1024x2_S512x2_1_0_0_1_n_n.lhsIdx_val_of_single rfl i q
theorem fin_rhs_0 (i : S512x2.Idx) (q : dot_S512x1024_S1024x2_S512x2_1_0_0_1_n_n.contr.Idx) :
    (dot_S512x1024_S1024x2_S512x2_1_0_0_1_n_n.rhsIdx i q 0).val = (q ⟨0, by decide⟩).val :=
  dot_S512x1024_S1024x2_S512x2_1_0_0_1_n_n.rhsIdx_val_of_single rfl i q
theorem fin_rhs_1 (i : S512x2.Idx) (q : dot_S512x1024_S1024x2_S512x2_1_0_0_1_n_n.contr.Idx) :
    (dot_S512x1024_S1024x2_S512x2_1_0_0_1_n_n.rhsIdx i q 1).val = (i 1).val := by
  unfold DotDims.rhsIdx
  rw [dif_neg (show ¬(1 : Fin S1024x2.rank) ∈ dot_S512x1024_S1024x2_S512x2_1_0_0_1_n_n.rhsBatch by decide), dif_pos (show (1 : Fin S1024x2.rank) ∈ dot_S512x1024_S1024x2_S512x2_1_0_0_1_n_n.rhsNonContracting by decide)]
  rfl

/-! ### The three products at an entry -/

/-- The gate product at `(p, j)`: the sum over the ten experts. -/
theorem gate_matmul {φ₁ φ₂ : FTy} (l : FVec Ideal S512x10 φ₁) (r : FVec Ideal S10x1024 φ₂) (p : Fin 512) (j : Fin 1024) :
    matmul dot_S512x10_S10x1024_S512x1024_1_0_0_1_n_n none l r (constant (F := Ideal) S512x1024 .f32 0x00000000#32) (ix2 p j)
      = ∑ a : Fin 10, l (ix2 p a) * r (ix2 a j) :=
  Cert.Lib.Dot2.matmul_zero_ix2 dot_S512x10_S10x1024_S512x1024_1_0_0_1_n_n none rfl rfl gate_lhs_0 gate_lhs_1 gate_rhs_0 gate_rhs_1 l r p j

/-- The second layer's product at `(p, j)`: the sum over the first layer's units. -/
theorem hid_matmul {φ₁ φ₂ : FTy} (l : FVec Ideal S512x1024 φ₁) (r : FVec Ideal S1024x1024 φ₂) (p : Fin 512) (j : Fin 1024) :
    matmul dot_S512x1024_S1024x1024_S512x1024_1_0_0_1_n_n none l r (constant (F := Ideal) S512x1024 .f32 0x00000000#32) (ix2 p j)
      = ∑ a : Fin 1024, l (ix2 p a) * r (ix2 a j) :=
  Cert.Lib.Dot2.matmul_zero_ix2 dot_S512x1024_S1024x1024_S512x1024_1_0_0_1_n_n none rfl rfl hid_lhs_0 hid_lhs_1 hid_rhs_0 hid_rhs_1 l r p j

/-- The result's product at `(p, o)`: the sum over the second layer's units. -/
theorem fin_matmul {φ₁ φ₂ : FTy} (l : FVec Ideal S512x1024 φ₁) (r : FVec Ideal S1024x2 φ₂) (p : Fin 512) (j : Fin 2) :
    matmul dot_S512x1024_S1024x2_S512x2_1_0_0_1_n_n none l r (constant (F := Ideal) S512x2 .f32 0x00000000#32) (ix2 p j)
      = ∑ a : Fin 1024, l (ix2 p a) * r (ix2 a j) :=
  Cert.Lib.Dot2.matmul_zero_ix2 dot_S512x1024_S1024x2_S512x2_1_0_0_1_n_n none rfl rfl fin_lhs_0 fin_lhs_1 fin_rhs_0 fin_rhs_1 l r p j

end Cert.KernelIdeal.Dots

end
-- ==== Proof.Spec.lean ====
/-
  What both programs compute, entry by entry, on the extended reals.

  Row `r` of the input carries ten gate weights (columns 0 to 9), a scalar `delta` (column 10) and a scalar `phi`
  (column 11). The first layer adds an affine map of `delta` to a gated expert term,
      pre1 r j = (delta r * w1 j + b1 j) + (phi r * (sum over a of gate r a * wm a j) + sum over a of gate r a * bm a j),
  and rectifies it; the second layer is an affine map of the first layer's 1024 outputs, rectified; the result is an
  affine map of the second layer's outputs to two columns. The weight matrices w2 and w3 are read transposed: entry
  (j, k) of w2 multiplies unit k of the first layer into unit j of the second. Every sum is a finite sum of extended
  reals, and the zero the rectifiers compare against is the zero word of the 32-bit format read as an extended real.
-/
import Idealize.ShloMosaic.Lib.ValueIdx

noncomputable section

open scoped BigOperators

namespace Cert.GatedMlp

open Idealize.ShloMosaic Idealize.ShloMosaic.ValueIdx

/-- The zero both rectifiers compare against. -/
abbrev zero : EReal := Ideal.ofBits .f32 0x00000000#32

/-- Gate column `a` (of ten) as a column of the twelve-wide input row. -/
abbrev gateCol (a : Fin 10) : Fin 12 := ⟨a.val, by have := a.isLt; omega⟩

variable (x : (⟨2, ![65536, 12]⟩ : Shape).Idx → EReal) (w1 : (⟨2, ![1024, 1]⟩ : Shape).Idx → EReal)
  (b1 : (⟨1, ![1024]⟩ : Shape).Idx → EReal) (wm bm : (⟨2, ![10, 1024]⟩ : Shape).Idx → EReal)
  (w2 : (⟨2, ![1024, 1024]⟩ : Shape).Idx → EReal) (b2 : (⟨1, ![1024]⟩ : Shape).Idx → EReal)
  (w3 : (⟨2, ![2, 1024]⟩ : Shape).Idx → EReal) (b3 : (⟨1, ![2]⟩ : Shape).Idx → EReal)

/-- Unit `j` of the first layer on row `r`: the affine map of `delta` plus the gated expert term, rectified. -/
def layer1 (r : Fin 65536) (j : Fin 1024) : EReal :=
  max ((x (ix2 r (10 : Fin 12)) * w1 (ix2 j (0 : Fin 1)) + b1 (ix1 j))
      + (x (ix2 r (11 : Fin 12)) * (∑ a : Fin 10, x (ix2 r (gateCol a)) * wm (ix2 a j))
          + ∑ a : Fin 10, x (ix2 r (gateCol a)) * bm (ix2 a j))) zero

/-- Unit `j` of the second layer on row `r`: row `j` of `w2` against the first layer, plus the bias, rectified. -/
def layer2 (r : Fin 65536) (j : Fin 1024) : EReal :=
  max ((∑ k : Fin 1024, layer1 x w1 b1 wm bm r k * w2 (ix2 j k)) + b2 (ix1 j)) zero

/-- Column `o` of the result on row `r`: row `o` of `w3` against the second layer, plus the bias. -/
def out (r : Fin 65536) (o : Fin 2) : EReal :=
  (∑ k : Fin 1024, layer2 x w1 b1 wm bm w2 b2 r k * w3 (ix2 o k)) + b3 (ix1 o)

/-- The whole result array. -/
def result : (⟨2, ![65536, 2]⟩ : Shape).Idx → EReal := fun i => out x w1 b1 wm bm w2 b2 w3 b3 (i 0) (i 1)

theorem result_ix2 (r : Fin 65536) (o : Fin 2) :
    result x w1 b1 wm bm w2 b2 w3 b3 (ix2 r o) = out x w1 b1 wm bm w2 b2 w3 b3 r o := rfl

end Cert.GatedMlp

end
-- ==== Proof.KernelBlock.lean ====
/-
  What one grid point leaves in its output block, entry by entry.

  A grid point sees 512 rows of the input, and whole copies of the weights: the first layer's weight and bias as one-row
  arrays, the two expert tables, the second and third weight matrices already transposed (so entry `(k, j)` multiplies
  unit `k` into unit `j`), and the two later biases as one-row arrays. Its body forms the gated network on those 512
  rows: the matrix products are sums over the contracted coordinate, the narrowing to the 16-bit format is the identity on
  the extended reals, a one-row array spread over the rows reads its column, a one-column array spread over the columns
  reads its row, and the three loads of the input block read columns 0 to 9, column 10 and column 11.
-/
import proofs.«122144_j20744692040155_1_alg».proof.Proof.Gen.KernelIdeal.Frame
import proofs.«122144_j20744692040155_1_alg».proof.Proof.KernelDots
import proofs.«122144_j20744692040155_1_alg».proof.Proof.Spec
import Idealize.ShloMosaic.Lib.Pipeline.Value
import Idealize.ShloMosaic.Lib.ValueLayout

noncomputable section

open scoped BigOperators

namespace Cert.KernelIdeal.Block

open Cert.KernelIdeal Cert.KernelIdeal.Gen Cert.KernelIdeal.Dots Idealize.ShloMosaic Idealize.ShloMosaic.ValueIdx Cert.GatedMlp

/-! ## A column spread over the columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block's formula -/

section Formula
variable (x0 : Vec Ideal S512x12 .f32) (x1 x2 : Vec Ideal S1x1024 .f32) (x3 x4 : Vec Ideal S10x1024 .bf16)
  (x5 : Vec Ideal S1024x1024 .bf16) (x6 : Vec Ideal S1x1024 .f32) (x7 : Vec Ideal S1024x2 .bf16) (x8 : Vec Ideal S1x2 .f32)

/-- Unit `k` of the first layer on row `p` of the block. -/
def blockLayer1 (p : Fin 512) (k : Fin 1024) : EReal :=
  max ((x0 (ix2 p (10 : Fin 12)) * x1 (ix2 (0 : Fin 1) k) + x2 (ix2 (0 : Fin 1) k))
      + (x0 (ix2 p (11 : Fin 12)) * (∑ a : Fin 10, x0 (ix2 p (gateCol a)) * x3 (ix2 a k))
          + ∑ a : Fin 10, x0 (ix2 p (gateCol a)) * x4 (ix2 a k))) zero

/-- Unit `j` of the second layer on row `p` of the block. -/
def blockLayer2 (p : Fin 512) (j : Fin 1024) : EReal :=
  max ((∑ k : Fin 1024, blockLayer1 x0 x1 x2 x3 x4 p k * x5 (ix2 k j)) + x6 (ix2 (0 : Fin 1) j)) zero

/-- Column `o` of the result on row `p` of the block. -/
def blockOut (p : Fin 512) (o : Fin 2) : EReal :=
  (∑ k : Fin 1024, blockLayer2 x0 x1 x2 x3 x4 x5 x6 p k * x7 (ix2 k o)) + x8 (ix2 (0 : Fin 1) o)

/-! ## The three loads of the input block -/

/-- The ten-column load reads gate column `a`. -/
theorem ld_gate (p : Fin 512) (a : Fin 10) : View.ld x0 r0_0 (ix2 p a) = x0 (ix2 p (gateCol a)) := by
  show x0 (r0_0.idx (ix2 p a)) = _
  refine congrArg x0 (funext fun d => Fin.ext ?_)
  match d with
  | ⟨0, _⟩ => show 0 + 1 * p.val = p.val; omega
  | ⟨1, _⟩ => show 0 + 1 * a.val = a.val; omega

/-- The one-column load at offset 10 reads `delta`. -/
theorem ld_delta (p : Fin 512) : View.ld x0 r0_1 (ix2 p (0 : Fin 1)) = x0 (ix2 p (10 : Fin 12)) := by
  show x0 (r0_1.idx (ix2 p (0 : Fin 1))) = _
  refine congrArg x0 (funext fun d => Fin.ext ?_)
  match d with
  | ⟨0, _⟩ => show 0 + 1 * p.val = p.val; omega
  | ⟨1, _⟩ => rfl

/-- The one-column load at offset 11 reads `phi`. -/
theorem ld_phi (p : Fin 512) : View.ld x0 r0_2 (ix2 p (0 : Fin 1)) = x0 (ix2 p (11 : Fin 12)) := by
  show x0 (r0_2.idx (ix2 p (0 : Fin 1))) = _
  refine congrArg x0 (funext fun d => Fin.ext ?_)
  match d with
  | ⟨0, _⟩ => show 0 + 1 * p.val = p.val; omega
  | ⟨1, _⟩ => rfl

end Formula

/-! ## The body's two payloads at an entry -/

section Body
variable (v0 : FVec Ideal S512x10 .f32) (v1 v2 : FVec Ideal S512x1 .f32) (v3 v5 : FVec Ideal S1x1024 .f32)
  (v13 v15 : FVec Ideal S10x1024 .bf16) (v26 : FVec Ideal S1024x1024 .bf16) (v29 : FVec Ideal S1x1024 .f32)
  (v36 : FVec Ideal S1024x2 .bf16) (v39 : FVec Ideal S1x2 .f32)

/-- The first layer over the body's loaded values: gate weights `v0`, `delta` `v1`, `phi` `v2`, the first layer's
    weight and bias rows `v3`, `v5`, the expert tables `v13`, `v15`. -/
def bodyLayer1 (p : Fin 512) (k : Fin 1024) : EReal :=
  max ((v1 (ix2 p (0 : Fin 1)) * v3 (ix2 (0 : Fin 1) k) + v5 (ix2 (0 : Fin 1) k))
      + (v2 (ix2 p (0 : Fin 1)) * (∑ a : Fin 10, v0 (ix2 p a) * v13 (ix2 a k)) + ∑ a : Fin 10, v0 (ix2 p a) * v15 (ix2 a k))) zero

/-- The second layer over the loaded values: the transposed second weight matrix `v26` and the bias row `v29`. -/
def bodyLayer2 (p : Fin 512) (j : Fin 1024) : EReal :=
  max ((∑ k : Fin 1024, bodyLayer1 v0 v1 v2 v3 v5 v13 v15 p k * v26 (ix2 k j)) + v29 (ix2 (0 : Fin 1) j)) zero

/-- The first layer inside the body, at `(p, k)`: spreads read their row or column, the two gate products are sums over
    the ten experts, the narrowing is the identity. -/
theorem layer1_at (p : Fin 512) (k : Fin 1024) :
    maximumf (addf (addf (mulf (broadcastTo S512x1024 v1 broadcasts_S512x1_S512x1024) (broadcastTo S512x1024 v3 broadcasts_S1x1024_S512x1024))
          (broadcastTo S512x1024 v5 broadcasts_S1x1024_S512x1024))
        (addf (mulf (broadcastTo S512x1024 v2 broadcasts_S512x1_S512x1024)
            (matmul dot_S512x10_S10x1024_S512x1024_1_0_0_1_n_n none (truncf .bf16 v0 bitsLt_bf16_f32) v13 (constant (F := Ideal) S512x1024 .f32 0x00000000#32)))
          (matmul dot_S512x10_S10x1024_S512x1024_1_0_0_1_n_n none (truncf .bf16 v0 bitsLt_bf16_f32) v15 (constant (F := Ideal) S512x1024 .f32 0x00000000#32))))
      (broadcast S512x1024 (Scalar.ofBits (F := Ideal) .f32 0x00000000#32)) (ix2 p k)
    = bodyLayer1 v0 v1 v2 v3 v5 v13 v15 p k := by
  rw [maximumf_apply, addf_apply, addf_apply, mulf_apply, addf_apply, mulf_apply, gate_matmul, gate_matmul, broadcast_apply,
    broadcastTo_a1_ab_apply v1, broadcastTo_a1_ab_apply v2, broadcastTo_1b_ab_apply v3, broadcastTo_1b_ab_apply v5]
  rfl

/-- The payload the body hands on to its last product, at `(p, j)`: the second layer. -/
theorem pay2_at (p : Fin 512) (j : Fin 1024) :
    k0_pay2 (F := Ideal) v0 v1 v2 v3 v5 v13 v15 v26 v29 (ix2 p j) = bodyLayer2 v0 v1 v2 v3 v5 v13 v15 v26 v29 p j := by
  unfold k0_pay2
  simp only [shapeCast_self]
  rw [truncf_apply, maximumf_apply, addf_apply, hid_matmul, broadcast_apply, broadcastTo_1b_ab_apply v29]
  simp only [truncf_apply, layer1_at]
  rfl

/-- The stored payload at `(p, o)`: the last product over a second layer `h`, plus the bias row. -/
theorem pay1_at (h : FVec Ideal S512x1024 .bf16) (p : Fin 512) (o : Fin 2) :
    k0_pay1 (F := Ideal) h v36 v39 (ix2 p o) = (∑ k : Fin 1024, h (ix2 p k) * v36 (ix2 k o)) + v39 (ix2 (0 : Fin 1) o) := by
  unfold k0_pay1
  simp only [shapeCast_self]
  rw [addf_apply, fin_matmul, broadcastTo_1b_ab_apply v39]

end Body

/-! ## The output block at an entry -/

section Block
variable (x0 : Vec Ideal S512x12 .f32) (x1 x2 : Vec Ideal S1x1024 .f32) (x3 x4 : Vec Ideal S10x1024 .bf16)
  (x5 : Vec Ideal S1024x1024 .bf16) (x6 : Vec Ideal S1x1024 .f32) (x7 : Vec Ideal S1024x2 .bf16) (x8 : Vec Ideal S1x2 .f32)

theorem zero_offsets : (![0, 0] : Fin 2 → Nat) = fun _ => 0 := funext fun a => by fin_cases a <;> rfl

/-- When three arrays hold the gate columns, `delta` and `phi` of the input block, the body's first layer over them is the
    block's first layer. -/
theorem bodyLayer1_of_loads (v0 : FVec Ideal S512x10 .f32) (v1 v2 : FVec Ideal S512x1 .f32)
    (h0 : ∀ (p : Fin 512) (a : Fin 10), v0 (ix2 p a) = x0 (ix2 p (gateCol a)))
    (h1 : ∀ p : Fin 512, v1 (ix2 p (0 : Fin 1)) = x0 (ix2 p (10 : Fin 12)))
    (h2 : ∀ p : Fin 512, v2 (ix2 p (0 : Fin 1)) = x0 (ix2 p (11 : Fin 12))) (p : Fin 512) (k : Fin 1024) :
    bodyLayer1 v0 v1 v2 x1 x2 x3 x4 p k = blockLayer1 x0 x1 x2 x3 x4 p k := by
  unfold bodyLayer1 blockLayer1
  simp only [h0, h1, h2]

/-- So is its second layer. -/
theorem bodyLayer2_of_loads (v0 : FVec Ideal S512x10 .f32) (v1 v2 : FVec Ideal S512x1 .f32)
    (h0 : ∀ (p : Fin 512) (a : Fin 10), v0 (ix2 p a) = x0 (ix2 p (gateCol a)))
    (h1 : ∀ p : Fin 512, v1 (ix2 p (0 : Fin 1)) = x0 (ix2 p (10 : Fin 12)))
    (h2 : ∀ p : Fin 512, v2 (ix2 p (0 : Fin 1)) = x0 (ix2 p (11 : Fin 12))) (p : Fin 512) (j : Fin 1024) :
    bodyLayer2 v0 v1 v2 x1 x2 x3 x4 x5 x6 p j = blockLayer2 x0 x1 x2 x3 x4 x5 x6 p j := by
  unfold bodyLayer2 blockLayer2
  simp only [bodyLayer1_of_loads x0 x1 x2 x3 x4 v0 v1 v2 h0 h1 h2]

/-- The output block after the body, at `(p, o)`: the one covering store leaves its payload, and every load but the three
    of the input block reads a whole buffer. -/
theorem out_at (p : Fin 512) (o : Fin 2) :
    out0_9 (F := Ideal) x0 x1 x2 x3 x4 x5 x6 x7 x8 (ix2 p o) = blockOut x0 x1 x2 x3 x4 x5 x6 x7 x8 p o := by
  unfold out0_9
  rw [View.canon_unit_zero zero_offsets]
  simp only [View.ld_unit_zero (S := S1x1024) zero_offsets, View.ld_unit_zero (S := S10x1024) zero_offsets,
    View.ld_unit_zero (S := S1024x1024) zero_offsets, View.ld_unit_zero (S := S1024x2) zero_offsets,
    View.ld_unit_zero (S := S1x2) zero_offsets]
  rw [pay1_at]
  simp only [pay2_at, bodyLayer2_of_loads x0 x1 x2 x3 x4 x5 x6 (View.ld x0 r0_0) (View.ld x0 r0_1) (View.ld x0 r0_2)
    (ld_gate x0) (ld_delta x0) (ld_phi x0)]
  rfl

end Block

end Cert.KernelIdeal.Block

end
-- ==== Proof.BlockSpec.lean ====
/-
  A block's formula is the whole network's formula on the rows the block holds.

  Suppose row `p` of a grid point's input block is row `r` of the whole input, the one-row arrays hold the first layer's
  weight column and the three biases, the two expert tables are the arguments' own, and the two staged weight matrices
  hold the transposes of the second and third weight matrices. Then what the body computes on row `p` is what the
  specification computes on row `r`: the two formulas differ only in where each operand is read.
-/
import proofs.«122144_j20744692040155_1_alg».proof.Proof.KernelBlock

noncomputable section

open scoped BigOperators

namespace Cert.KernelIdeal.Block

open Cert.KernelIdeal Idealize.ShloMosaic Idealize.ShloMosaic.ValueIdx Cert.GatedMlp

variable (X0 : Vec Ideal S512x12 .f32) (X1 X2 : Vec Ideal S1x1024 .f32) (X3 X4 : Vec Ideal S10x1024 .bf16)
  (X5 : Vec Ideal S1024x1024 .bf16) (X6 : Vec Ideal S1x1024 .f32) (X7 : Vec Ideal S1024x2 .bf16) (X8 : Vec Ideal S1x2 .f32)
  (x : (⟨2, ![65536, 12]⟩ : Shape).Idx → EReal) (w1 : (⟨2, ![1024, 1]⟩ : Shape).Idx → EReal)
  (b1 : (⟨1, ![1024]⟩ : Shape).Idx → EReal) (wm bm : (⟨2, ![10, 1024]⟩ : Shape).Idx → EReal)
  (w2 : (⟨2, ![1024, 1024]⟩ : Shape).Idx → EReal) (b2 : (⟨1, ![1024]⟩ : Shape).Idx → EReal)
  (w3 : (⟨2, ![2, 1024]⟩ : Shape).Idx → EReal) (b3 : (⟨1, ![2]⟩ : Shape).Idx → EReal)
  (r : Fin 65536) (p : Fin 512)

/-- The first layer. -/
theorem blockLayer1_eq (h0 : ∀ a : Fin 12, X0 (ix2 p a) = x (ix2 r a))
    (h1 : ∀ k : Fin 1024, X1 (ix2 (0 : Fin 1) k) = w1 (ix2 k (0 : Fin 1)))
    (h2 : ∀ k : Fin 1024, X2 (ix2 (0 : Fin 1) k) = b1 (ix1 k))
    (h3 : ∀ (a : Fin 10) (k : Fin 1024), X3 (ix2 a k) = wm (ix2 a k))
    (h4 : ∀ (a : Fin 10) (k : Fin 1024), X4 (ix2 a k) = bm (ix2 a k)) (k : Fin 1024) :
    blockLayer1 X0 X1 X2 X3 X4 p k = layer1 x w1 b1 wm bm r k := by
  unfold blockLayer1 layer1
  simp only [h0, h1, h2, h3, h4]

/-- The second layer: the staged matrix at `(k, j)` is the second weight matrix at `(j, k)`. -/
theorem blockLayer2_eq (h0 : ∀ a : Fin 12, X0 (ix2 p a) = x (ix2 r a))
    (h1 : ∀ k : Fin 1024, X1 (ix2 (0 : Fin 1) k) = w1 (ix2 k (0 : Fin 1)))
    (h2 : ∀ k : Fin 1024, X2 (ix2 (0 : Fin 1) k) = b1 (ix1 k))
    (h3 : ∀ (a : Fin 10) (k : Fin 1024), X3 (ix2 a k) = wm (ix2 a k))
    (h4 : ∀ (a : Fin 10) (k : Fin 1024), X4 (ix2 a k) = bm (ix2 a k))
    (h5 : ∀ k j : Fin 1024, X5 (ix2 k j) = w2 (ix2 j k))
    (h6 : ∀ j : Fin 1024, X6 (ix2 (0 : Fin 1) j) = b2 (ix1 j)) (j : Fin 1024) :
    blockLayer2 X0 X1 X2 X3 X4 X5 X6 p j = layer2 x w1 b1 wm bm w2 b2 r j := by
  unfold blockLayer2 layer2
  simp only [blockLayer1_eq X0 X1 X2 X3 X4 x w1 b1 wm bm r p h0 h1 h2 h3 h4, h5, h6]

/-- The result: the staged matrix at `(k, o)` is the third weight matrix at `(o, k)`. -/
theorem blockOut_eq (h0 : ∀ a : Fin 12, X0 (ix2 p a) = x (ix2 r a))
    (h1 : ∀ k : Fin 1024, X1 (ix2 (0 : Fin 1) k) = w1 (ix2 k (0 : Fin 1)))
    (h2 : ∀ k : Fin 1024, X2 (ix2 (0 : Fin 1) k) = b1 (ix1 k))
    (h3 : ∀ (a : Fin 10) (k : Fin 1024), X3 (ix2 a k) = wm (ix2 a k))
    (h4 : ∀ (a : Fin 10) (k : Fin 1024), X4 (ix2 a k) = bm (ix2 a k))
    (h5 : ∀ k j : Fin 1024, X5 (ix2 k j) = w2 (ix2 j k))
    (h6 : ∀ j : Fin 1024, X6 (ix2 (0 : Fin 1) j) = b2 (ix1 j))
    (h7 : ∀ (k : Fin 1024) (o : Fin 2), X7 (ix2 k o) = w3 (ix2 o k))
    (h8 : ∀ o : Fin 2, X8 (ix2 (0 : Fin 1) o) = b3 (ix1 o)) (o : Fin 2) :
    blockOut X0 X1 X2 X3 X4 X5 X6 X7 X8 p o = out x w1 b1 wm bm w2 b2 w3 b3 r o := by
  unfold blockOut out
  simp only [blockLayer2_eq X0 X1 X2 X3 X4 X5 X6 x w1 b1 wm bm w2 b2 r p h0 h1 h2 h3 h4 h5 h6, h7, h8]

end Cert.KernelIdeal.Block

end
-- ==== Proof.KernelValue.lean ====
/-
  The kernel's result array as one function of the arguments.

  Before the kernel is launched the program lays out its operands: the first layer's weight column and the three bias
  vectors become one-row arrays, the two expert tables are narrowed to the 16-bit format, and the second and third weight
  matrices are transposed and narrowed. On the extended reals the narrowing is the identity, a reshaped vector keeps its
  entries in row-major order, and a transpose swaps the two coordinates.

  Grid point `t` of 128 stages rows `512 t` to `512 t + 511` of the input and whole copies of everything else, and writes
  back the same rows of the result. Its block holds the gated network on those rows, so each write-back is a block of
  the specification's result array; the 128 blocks cover all 65536 rows, so the array the run ends with is that result.
-/
import proofs.«122144_j20744692040155_1_alg».proof.Proof.Gen.KernelIdeal.Value
import proofs.«122144_j20744692040155_1_alg».proof.Proof.BlockSpec
import Idealize.ShloMosaic.Lib.StableHlo.Run
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Block Idealize.ShloMosaic Idealize.ShloMosaic.TcCoe
  Idealize.SL.Sem Idealize.ShloMosaic.StableHlo Idealize.ShloMosaic.ValueIdx Cert.GatedMlp
open Idealize.ShloMosaic.Pipeline (Dat)

variable (m : (ℓ : Loc nD τ sig) → Buf (Elt Ideal) ℓ) (ρ : Dev nD → PrngReg)

/-! ## The operands as the kernel finds them -/

section Staged
variable (c : Dev nD)

/-- The first layer's weight column, reshaped to a vector and then to one row. -/
theorem staged_w1 : (V m c main_v1 : S1x1024.Idx → EReal)
    = shapeCast S1x1024 (shapeCast S1024 (m ((c : Thread nD τ).loc main_arg1)) shapeCasts_S1024x1_S1024) shapeCasts_S1024_S1x1024 := by
  dsimp only [V, hostOps0]; after_results; rfl
/-- The first layer's bias as one row. -/
theorem staged_b1 : (V m c main_v2 : S1x1024.Idx → EReal)
    = shapeCast S1x1024 (m ((c : Thread nD τ).loc main_arg2)) shapeCasts_S1024_S1x1024 := by
  dsimp only [V, hostOps0]; after_results; rfl
/-- The second layer's bias as one row. -/
theorem staged_b2 : (V m c main_v3 : S1x1024.Idx → EReal)
    = shapeCast S1x1024 (m ((c : Thread nD τ).loc main_arg6)) shapeCasts_S1024_S1x1024 := by
  dsimp only [V, hostOps0]; after_results; rfl
/-- The result's bias as one row. -/
theorem staged_b3 : (V m c main_v4 : S1x2.Idx → EReal)
    = shapeCast S1x2 (m ((c : Thread nD τ).loc main_arg8)) shapeCasts_S2_S1x2 := by
  dsimp only [V, hostOps0]; after_results; rfl
/-- The expert weights, narrowed. -/
theorem staged_wm : (V m c main_v5 : S10x1024.Idx → EReal)
    = truncf (F := Ideal) (s := S10x1024) (φ := .f32) .bf16 (m ((c : Thread nD τ).loc main_arg3)) bitsLt_bf16_f32 := by
  dsimp only [V, hostOps0]; after_results
/-- The expert biases, narrowed. -/
theorem staged_bm : (V m c main_v6 : S10x1024.Idx → EReal)
    = truncf (F := Ideal) (s := S10x1024) (φ := .f32) .bf16 (m ((c : Thread nD τ).loc main_arg4)) bitsLt_bf16_f32 := by
  dsimp only [V, hostOps0]; after_results
/-- The second weight matrix, transposed and narrowed. -/
theorem staged_w2 : (V m c main_v8 : S1024x1024.Idx → EReal)
    = truncf (F := Ideal) (s := S1024x1024) (φ := .f32) .bf16
        (transpose S1024x1024 [1, 0] (m ((c : Thread nD τ).loc main_arg5) : FVec Ideal S1024x1024 .f32) transposes_S1024x1024_S1024x1024_1_0) bitsLt_bf16_f32 := by
  dsimp only [V, hostOps0]; after_results
/-- The third weight matrix, transposed and narrowed. -/
theorem staged_w3 : (V m c main_v10 : S1024x2.Idx → EReal)
    = truncf (F := Ideal) (s := S1024x2) (φ := .f32) .bf16
        (transpose S1024x2 [1, 0] (m ((c : Thread nD τ).loc main_arg7) : FVec Ideal S2x1024 .f32) transposes_S2x1024_S1024x2_1_0) bitsLt_bf16_f32 := by
  dsimp only [V, hostOps0]; after_results

end Staged

/-! ## A reshaped vector and a transposed matrix at an entry -/

/-- A vector of `n` entries laid out as one row reads, at column `k`, its entry `k`. -/
theorem row_of_vector {n : ℕ} (v : (⟨1, ![n]⟩ : Shape).Idx → EReal) (h : (⟨1, ![n]⟩ : Shape).ShapeCasts ⟨2, ![1, n]⟩) (k : Fin n) :
    shapeCast ⟨2, ![1, n]⟩ v h (ix2 (0 : Fin 1) k) = v (ix1 k) := by
  refine shapeCast_apply v h (ix2 (0 : Fin 1) k) (ix1 k) ?_
  rw [Shape.rowMajor_val_one, Shape.rowMajor_val_two]
  show k.val = 0 * n + k.val
  omega

/-- An `n` by one column laid out as a vector reads, at `k`, its row `k`. -/
theorem vector_of_column {n : ℕ} (v : (⟨2, ![n, 1]⟩ : Shape).Idx → EReal) (h : (⟨2, ![n, 1]⟩ : Shape).ShapeCasts ⟨1, ![n]⟩) (k : Fin n) :
    shapeCast ⟨1, ![n]⟩ v h (ix1 k) = v (ix2 k (0 : Fin 1)) := by
  refine shapeCast_apply v h (ix1 k) (ix2 k (0 : Fin 1)) ?_
  rw [Shape.rowMajor_val_one, Shape.rowMajor_val_two]
  show k.val * 1 + 0 = k.val
  omega

/-- The transpose of an `a` by `b` matrix reads, at `(k, j)`, the matrix at `(j, k)`. -/
theorem transpose_ix2 {a b : ℕ} (v : (⟨2, ![a, b]⟩ : Shape).Idx → EReal) (h : (⟨2, ![a, b]⟩ : Shape).Transposes [1, 0] ⟨2, ![b, a]⟩)
    (k : Fin b) (j : Fin a) : transpose ⟨2, ![b, a]⟩ [1, 0] v h (ix2 k j) = v (ix2 j k) := by
  refine transpose_apply [1, 0] v h (ix2 k j) (ix2 j k) fun d => ?_
  match d with
  | ⟨0, _⟩ => rfl
  | ⟨1, _⟩ => rfl

/-! ## Where each window's block sits -/

/-- The printed index maps over the 128 grid points: the input's and the result's blocks move down the rows with the
    point; every other window stays on its one block. -/
theorem window_indices : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- There are 128 grid points. -/
theorem point_lt (t : Fin cfg0.N) : t.val < 128 := t.isLt

section Blocks
variable (c : Dev nD) (t : Fin cfg0.N)

/-- The blocks a grid point is handed, each at its literal type. -/
abbrev blk0 : Vec Ideal S512x12 .f32 := iblk m c 0 t
abbrev blk1 : Vec Ideal S1x1024 .f32 := iblk m c 1 t
abbrev blk2 : Vec Ideal S1x1024 .f32 := iblk m c 2 t
abbrev blk3 : Vec Ideal S10x1024 .bf16 := iblk m c 3 t
abbrev blk4 : Vec Ideal S10x1024 .bf16 := iblk m c 4 t
abbrev blk5 : Vec Ideal S1024x1024 .bf16 := iblk m c 5 t
abbrev blk6 : Vec Ideal S1x1024 .f32 := iblk m c 6 t
abbrev blk7 : Vec Ideal S1024x2 .bf16 := iblk m c 7 t
abbrev blk8 : Vec Ideal S1x2 .f32 := iblk m c 8 t

/-- Row `p` of the input block at point `t` is row `512 t + p` of the input. -/
theorem input_block (p : Fin 512) (a : Fin 12) (r : Fin 65536) (hr : r.val = t.val * 512 + p.val) :
    blk0 m c t (ix2 p a) = m ((c : Thread nD τ).loc main_arg0) (ix2 r a) := by
  show V m c main_arg0 (((cfg0.win 0).blk t).view.emb (ix2 p a)) = _
  rw [V_main_arg0]
  refine congrArg _ (funext fun d => Fin.ext ?_)
  obtain ⟨e0, e1, -⟩ := window_indices t
  match d with
  | ⟨0, _⟩ => show win0_0.index t (0 : Fin 2) * 512 + 1 * p.val = r.val; omega
  | ⟨1, _⟩ => show win0_0.index t (1 : Fin 2) * 12 + 1 * a.val = a.val; omega

/-- Every other window's block is its whole array. -/
theorem whole1 (y : S1x1024.Idx) : blk1 m c t y = V m c main_v1 y := by
  show V m c main_v1 (((cfg0.win 1).blk t).view.emb y) = _
  refine congrArg _ (funext fun d => Fin.ext ?_)
  obtain ⟨-, -, -, -, e0, e1, -⟩ := window_indices t
  match d with
  | ⟨0, _⟩ => show win0_1.index t (0 : Fin 2) * 1 + 1 * (y 0).val = (y 0).val; omega
  | ⟨1, _⟩ => show win0_1.index t (1 : Fin 2) * 1024 + 1 * (y 1).val = (y 1).val; omega
theorem whole2 (y : S1x1024.Idx) : blk2 m c t y = V m c main_v2 y := by
  show V m c main_v2 (((cfg0.win 2).blk t).view.emb y) = _
  refine congrArg _ (funext fun d => Fin.ext ?_)
  obtain ⟨-, -, -, -, -, -, e0, e1, -⟩ := window_indices t
  match d with
  | ⟨0, _⟩ => show win0_2.index t (0 : Fin 2) * 1 + 1 * (y 0).val = (y 0).val; omega
  | ⟨1, _⟩ => show win0_2.index t (1 : Fin 2) * 1024 + 1 * (y 1).val = (y 1).val; omega
theorem whole3 (y : S10x1024.Idx) : blk3 m c t y = V m c main_v5 y := by
  show V m c main_v5 (((cfg0.win 3).blk t).view.emb y) = _
  refine congrArg _ (funext fun d => Fin.ext ?_)
  obtain ⟨-, -, -, -, -, -, -, -, e0, e1, -⟩ := window_indices t
  match d with
  | ⟨0, _⟩ => show win0_3.index t (0 : Fin 2) * 10 + 1 * (y 0).val = (y 0).val; omega
  | ⟨1, _⟩ => show win0_3.index t (1 : Fin 2) * 1024 + 1 * (y 1).val = (y 1).val; omega
theorem whole4 (y : S10x1024.Idx) : blk4 m c t y = V m c main_v6 y := by
  show V m c main_v6 (((cfg0.win 4).blk t).view.emb y) = _
  refine congrArg _ (funext fun d => Fin.ext ?_)
  obtain ⟨-, -, -, -, -, -, -, -, -, -, e0, e1, -⟩ := window_indices t
  match d with
  | ⟨0, _⟩ => show win0_4.index t (0 : Fin 2) * 10 + 1 * (y 0).val = (y 0).val; omega
  | ⟨1, _⟩ => show win0_4.index t (1 : Fin 2) * 1024 + 1 * (y 1).val = (y 1).val; omega
theorem whole5 (y : S1024x1024.Idx) : blk5 m c t y = V m c main_v8 y := by
  show V m c main_v8 (((cfg0.win 5).blk t).view.emb y) = _
  refine congrArg _ (funext fun d => Fin.ext ?_)
  obtain ⟨-, -, -, -, -, -, -, -, -, -, -, -, e0, e1, -⟩ := window_indices t
  match d with
  | ⟨0, _⟩ => show win0_5.index t (0 : Fin 2) * 1024 + 1 * (y 0).val = (y 0).val; omega
  | ⟨1, _⟩ => show win0_5.index t (1 : Fin 2) * 1024 + 1 * (y 1).val = (y 1).val; omega
theorem whole6 (y : S1x1024.Idx) : blk6 m c t y = V m c main_v3 y := by
  show V m c main_v3 (((cfg0.win 6).blk t).view.emb y) = _
  refine congrArg _ (funext fun d => Fin.ext ?_)
  obtain ⟨-, -, -, -, -, -, -, -, -, -, -, -, -, -, e0, e1, -⟩ := window_indices t
  match d with
  | ⟨0, _⟩ => show win0_6.index t (0 : Fin 2) * 1 + 1 * (y 0).val = (y 0).val; omega
  | ⟨1, _⟩ => show win0_6.index t (1 : Fin 2) * 1024 + 1 * (y 1).val = (y 1).val; omega
theorem whole7 (y : S1024x2.Idx) : blk7 m c t y = V m c main_v10 y := by
  show V m c main_v10 (((cfg0.win 7).blk t).view.emb y) = _
  refine congrArg _ (funext fun d => Fin.ext ?_)
  obtain ⟨-, -, -, -, -, -, -, -, -, -, -, -, -, -, -, -, e0, e1, -⟩ := window_indices t
  match d with
  | ⟨0, _⟩ => show win0_7.index t (0 : Fin 2) * 1024 + 1 * (y 0).val = (y 0).val; omega
  | ⟨1, _⟩ => show win0_7.index t (1 : Fin 2) * 2 + 1 * (y 1).val = (y 1).val; omega
theorem whole8 (y : S1x2.Idx) : blk8 m c t y = V m c main_v4 y := by
  show V m c main_v4 (((cfg0.win 8).blk t).view.emb y) = _
  refine congrArg _ (funext fun d => Fin.ext ?_)
  obtain ⟨-, -, -, -, -, -, -, -, -, -, -, -, -, -, -, -, -, -, e0, e1⟩ := window_indices t
  match d with
  | ⟨0, _⟩ => show win0_8.index t (0 : Fin 2) * 1 + 1 * (y 0).val = (y 0).val; omega
  | ⟨1, _⟩ => show win0_8.index t (1 : Fin 2) * 2 + 1 * (y 1).val = (y 1).val; omega

end Blocks

/-! ## What a grid point writes back -/

section Point
variable (c : Dev nD) (t : Fin cfg0.N)

/-- The first layer's weight row, as staged, at column `k`. -/
theorem at_w1 (k : Fin 1024) : blk1 m c t (ix2 (0 : Fin 1) k) = (m ((c : Thread nD τ).loc main_arg1)) (ix2 k (0 : Fin 1)) :=
  (whole1 m c t _).trans ((congrFun (staged_w1 m c) _).trans ((row_of_vector _ _ k).trans (vector_of_column _ _ k)))
/-- The first layer's bias row at column `k`. -/
theorem at_b1 (k : Fin 1024) : blk2 m c t (ix2 (0 : Fin 1) k) = (m ((c : Thread nD τ).loc main_arg2)) (ix1 k) :=
  (whole2 m c t _).trans ((congrFun (staged_b1 m c) _).trans (row_of_vector _ _ k))
/-- The expert weights, entry for entry. -/
theorem at_wm (a : Fin 10) (k : Fin 1024) : blk3 m c t (ix2 a k) = (m ((c : Thread nD τ).loc main_arg3)) (ix2 a k) :=
  (whole3 m c t _).trans (congrFun (staged_wm m c) _)
/-- The expert biases, entry for entry. -/
theorem at_bm (a : Fin 10) (k : Fin 1024) : blk4 m c t (ix2 a k) = (m ((c : Thread nD τ).loc main_arg4)) (ix2 a k) :=
  (whole4 m c t _).trans (congrFun (staged_bm m c) _)
/-- The staged second weight matrix at `(k, j)` is the argument at `(j, k)`. -/
theorem at_w2 (k j : Fin 1024) : blk5 m c t (ix2 k j) = (m ((c : Thread nD τ).loc main_arg5)) (ix2 j k) :=
  (whole5 m c t _).trans ((congrFun (staged_w2 m c) _).trans (transpose_ix2 _ _ k j))
/-- The second layer's bias row at column `j`. -/
theorem at_b2 (j : Fin 1024) : blk6 m c t (ix2 (0 : Fin 1) j) = (m ((c : Thread nD τ).loc main_arg6)) (ix1 j) :=
  (whole6 m c t _).trans ((congrFun (staged_b2 m c) _).trans (row_of_vector _ _ j))
/-- The staged third weight matrix at `(k, o)` is the argument at `(o, k)`. -/
theorem at_w3 (k : Fin 1024) (o : Fin 2) : blk7 m c t (ix2 k o) = (m ((c : Thread nD τ).loc main_arg7)) (ix2 o k) :=
  (whole7 m c t _).trans ((congrFun (staged_w3 m c) _).trans (transpose_ix2 _ _ k o))
/-- The result's bias row at column `o`. -/
theorem at_b3 (o : Fin 2) : blk8 m c t (ix2 (0 : Fin 1) o) = (m ((c : Thread nD τ).loc main_arg8)) (ix1 o) :=
  (whole8 m c t _).trans ((congrFun (staged_b3 m c) _).trans (row_of_vector _ _ o))

/-- WHAT POINT `t` WRITES BACK is block `t` of the specification's result array of the arguments. -/
theorem flushed_eq :
    (dats m 0 c).flushed 9 t = ((cfg0.win 9).blk t).view.read (Elt Ideal)
      (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed9]
  funext y
  obtain ⟨p, o, rfl⟩ : ∃ (p : Fin 512) (o : Fin 2), y = ix2 p o := ⟨y 0, y 1, eq_ix2 y⟩
  obtain ⟨-, -, e0, e1, -⟩ := window_indices t
  have ht := point_lt t
  have hr : t.val * 512 + p.val < 65536 := by have := p.isLt; omega
  have hemb : ((cfg0.win 9).blk t).view.emb (ix2 p o) = ix2 (⟨t.val * 512 + p.val, hr⟩ : Fin 65536) o :=
    funext fun d => Fin.ext (by
      match d with
      | ⟨0, _⟩ => show win0_9.index t (0 : Fin 2) * 512 + 1 * p.val = t.val * 512 + p.val; omega
      | ⟨1, _⟩ => show win0_9.index t (1 : Fin 2) * 2 + 1 * o.val = o.val; omega)
  show out0_9 (blk0 m c t) (blk1 m c t) (blk2 m c t) (blk3 m c t) (blk4 m c t) (blk5 m c t) (blk6 m c t) (blk7 m c t) (blk8 m c t) (ix2 p o)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p o))
  rw [hemb, result_ix2]
  refine (out_at (blk0 m c t) (blk1 m c t) (blk2 m c t) (blk3 m c t) (blk4 m c t) (blk5 m c t) (blk6 m c t) (blk7 m c t) (blk8 m c t) p o).trans ?_
  exact blockOut_eq (blk0 m c t) (blk1 m c t) (blk2 m c t) (blk3 m c t) (blk4 m c t) (blk5 m c t) (blk6 m c t) (blk7 m c t) (blk8 m c t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ⟨t.val * 512 + p.val, hr⟩ p (fun a => input_block m c t p a _ rfl) (at_w1 m c t) (at_b1 m c t) (at_wm m c t) (at_bm m c t)
    (at_w2 m c t) (at_b2 m c t) (at_w3 m c t) (at_b3 m c t) o

end Point

/-! ## The blocks cover the result -/

/-- An index of the result array is in point `t`'s block iff each coordinate is in the block's range on its axis. -/
theorem mem_block (t : Fin cfg0.N) (i : S65536x2.Idx) :
    i ∈ ((cfg0.win 9).blk t).view.set ↔ ∀ a : Fin 2, win0_9.index t a * S512x2.size a ≤ (i a).val ∧ (i a).val < win0_9.index t a * S512x2.size a + S512x2.size a := by
  show i ∈ ((View.whole main_v11).slice (win0_9.rect t)).set ↔ _
  rw [View.set_slice_whole, Rect.mem_set_unit]
  exact Iff.rfl

/-- Row `r` of the result is written back by point `r / 512`. -/
theorem covered (i : S65536x2.Idx) : ∃ t : Fin cfg0.N, (cfg0.win 9).flush t = true ∧ i ∈ ((cfg0.win 9).blk t).view.set := by
  have hi0 : (i 0).val < 65536 := (i 0).isLt
  have hi1 : (i 1).val < 2 := (i 1).isLt
  have hq : (i 0).val / 512 < 128 := by omega
  obtain ⟨-, -, e0, e1, -⟩ := window_indices (⟨(i 0).val / 512, hq⟩ : Fin cfg0.N)
  refine ⟨⟨(i 0).val / 512, hq⟩, flush0_9 _, ?_⟩
  rw [mem_block]
  intro a
  match a with
  | ⟨0, _⟩ =>
    show win0_9.index ⟨(i 0).val / 512, hq⟩ (0 : Fin 2) * 512 ≤ (i 0).val ∧ (i 0).val < win0_9.index ⟨(i 0).val / 512, hq⟩ (0 : Fin 2) * 512 + 512
    rw [e0]
    show (i 0).val / 512 * 512 ≤ (i 0).val ∧ (i 0).val < (i 0).val / 512 * 512 + 512
    omega
  | ⟨1, _⟩ =>
    show win0_9.index ⟨(i 0).val / 512, hq⟩ (1 : Fin 2) * 2 ≤ (i 1).val ∧ (i 1).val < win0_9.index ⟨(i 0).val / 512, hq⟩ (1 : Fin 2) * 2 + 2
    rw [e1]
    omega

/-! ## The run -/

/-- THE RESULT ARRAY after the run is the specification's result of the arguments. -/
theorem final (c : Dev nD) :
    (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed_eq m c t) covered

/-- The kernel's run re-posted: the result array at the specification's function of the arguments, the arguments unchanged. -/
theorem run : θ_run defs (onTc (τ := τ) (main (F := Ideal))) ⟨m, fun _ => 0, ρ⟩ fun r => ∀ c : Dev nD,
      r.2.mem ((c : Thread nD τ).loc main_v11) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefValue.lean ====
/-
  The reference's last stage is the gated network's result, entry by entry.

  The reference slices the gate weights, `delta` and `phi` out of each input row, spreads the row vectors and the
  per-row scalars over a 65536 by 1024 array, and forms each layer by a contraction over one axis followed by a bias and
  a maximum with zero. Read at an entry, every slice and every spreading only moves an index, every contraction is a
  finite sum over the contracted coordinate, and the two transposes swap the coordinates of the second and third weight
  matrices: what is left is the specification's formula, layer by layer.
-/
import proofs.«122144_j20744692040155_1_alg».proof.Proof.Gen.ReferenceIdeal.Read
import proofs.«122144_j20744692040155_1_alg».proof.Proof.Spec

noncomputable section

open scoped BigOperators

namespace Cert.ReferenceIdeal.RefValue

open Cert.ReferenceIdeal Cert.ReferenceIdeal.Read Idealize.ShloMosaic Idealize.ShloMosaic.ValueIdx Cert.GatedMlp

variable (x0 : (⟨S65536x12, .f32⟩ : BufTy).Contents (Elt Ideal)) (x1 : (⟨S1024x1, .f32⟩ : BufTy).Contents (Elt Ideal))
  (x2 : (⟨S1024, .f32⟩ : BufTy).Contents (Elt Ideal)) (x3 x4 : (⟨S10x1024, .f32⟩ : BufTy).Contents (Elt Ideal))
  (x5 : (⟨S1024x1024, .f32⟩ : BufTy).Contents (Elt Ideal)) (x6 : (⟨S1024, .f32⟩ : BufTy).Contents (Elt Ideal))
  (x7 : (⟨S2x1024, .f32⟩ : BufTy).Contents (Elt Ideal)) (x8 : (⟨S2, .f32⟩ : BufTy).Contents (Elt Ideal))

/-! ## Where each spread or sliced operand is read -/

section Indices
variable (r : Fin 65536) (j : Fin 1024) (o : Fin 2)

/-- `delta` of row `r` sits in column 10 of the input row. -/
theorem at_delta : idx_main_v1 (idx_main_v5 (ix2 r j)) = ix2 r (10 : Fin 12) :=
  funext fun a => Fin.ext (by match a with | ⟨0, _⟩ => rfl | ⟨1, _⟩ => rfl)
/-- `phi` of row `r` sits in column 11. -/
theorem at_phi : idx_main_v2 (idx_main_v12 (ix2 r j)) = ix2 r (11 : Fin 12) :=
  funext fun a => Fin.ext (by match a with | ⟨0, _⟩ => rfl | ⟨1, _⟩ => rfl)
/-- The first layer's weight for unit `j` is row `j` of the one-column matrix. -/
theorem at_w1 : idx_main_v3 (idx_main_v4 (idx_main_v6 (ix2 r j))) = ix2 j (0 : Fin 1) :=
  funext fun a => Fin.ext (by match a with | ⟨0, _⟩ => exact Nat.div_one _ | ⟨1, _⟩ => rfl)
/-- The first layer's bias for unit `j`. -/
theorem at_b1 : idx_main_v8 (idx_main_v9 (ix2 r j)) = ix1 j :=
  funext fun a => Fin.ext (by match a with | ⟨0, _⟩ => rfl)
/-- Gate weight `a` of row `r`, in the first expert contraction … -/
theorem at_gate_m (a : Fin 10) : idx_main_v0 (lidx_main_v11 (ix2 r j) a) = ix2 r (gateCol a) :=
  funext fun d => Fin.ext (by match d with | ⟨0, _⟩ => rfl | ⟨1, _⟩ => rfl)
/-- … against entry `(a, j)` of the expert weights; -/
theorem at_wm (a : Fin 10) : ridx_main_v11 (ix2 r j) a = ix2 a j :=
  funext fun d => Fin.ext (by match d with | ⟨0, _⟩ => rfl | ⟨1, _⟩ => rfl)
/-- and the same in the second expert contraction, -/
theorem at_gate_b (a : Fin 10) : idx_main_v0 (lidx_main_v14 (ix2 r j) a) = ix2 r (gateCol a) :=
  funext fun d => Fin.ext (by match d with | ⟨0, _⟩ => rfl | ⟨1, _⟩ => rfl)
/-- against entry `(a, j)` of the expert biases. -/
theorem at_bm (a : Fin 10) : ridx_main_v14 (ix2 r j) a = ix2 a j :=
  funext fun d => Fin.ext (by match d with | ⟨0, _⟩ => rfl | ⟨1, _⟩ => rfl)
/-- The second layer contracts unit `k` of the first layer on the same row … -/
theorem at_h1 (k : Fin 1024) : lidx_main_v19 (ix2 r j) k = ix2 r k :=
  funext fun d => Fin.ext (by match d with | ⟨0, _⟩ => rfl | ⟨1, _⟩ => rfl)
/-- … against entry `(j, k)` of the second weight matrix (read through its transpose). -/
theorem at_w2 (k : Fin 1024) : idx_main_v18 (ridx_main_v19 (ix2 r j) k) = ix2 j k :=
  funext fun d => Fin.ext (by match d with | ⟨0, _⟩ => rfl | ⟨1, _⟩ => rfl)
/-- The second layer's bias for unit `j`. -/
theorem at_b2 : idx_main_v20 (idx_main_v21 (ix2 r j)) = ix1 j :=
  funext fun a => Fin.ext (by match a with | ⟨0, _⟩ => rfl)
/-- The result contracts unit `k` of the second layer on the same row … -/
theorem at_h2 (k : Fin 1024) : lidx_main_v25 (ix2 r o) k = ix2 r k :=
  funext fun d => Fin.ext (by match d with | ⟨0, _⟩ => rfl | ⟨1, _⟩ => rfl)
/-- … against entry `(o, k)` of the third weight matrix (read through its transpose). -/
theorem at_w3 (k : Fin 1024) : idx_main_v24 (ridx_main_v25 (ix2 r o) k) = ix2 o k :=
  funext fun d => Fin.ext (by match d with | ⟨0, _⟩ => rfl | ⟨1, _⟩ => rfl)
/-- The result's bias for column `o`. -/
theorem at_b3 : idx_main_v26 (idx_main_v27 (ix2 r o)) = ix1 o :=
  funext fun a => Fin.ext (by match a with | ⟨0, _⟩ => rfl)

end Indices

/-! ## Layer by layer -/

/-- The first rectified stage at `(r, j)` is unit `j` of the first layer on row `r`. -/
theorem stage17 (r : Fin 65536) (j : Fin 1024) :
    val_main_v17 (F := Ideal) x0 x1 x2 x3 x4 (ix2 r j) = layer1 x0 x1 x2 x3 x4 r j := by
  rw [val_main_v17_apply, val_main_v16_apply, val_main_v10_apply, val_main_v7_apply, val_main_v5_apply, val_main_v1_apply,
    val_main_v6_apply, val_main_v4_apply, val_main_v3_apply, val_main_v9_apply, val_main_v8_apply, val_main_v15_apply,
    val_main_v13_apply, val_main_v12_apply, val_main_v2_apply, val_main_v11_apply, val_main_v14_apply,
    val_main_call0_v0_apply, val_main_call0_cst_apply, at_delta, at_phi, at_w1, at_b1]
  simp only [val_main_v0_apply, at_gate_m, at_wm, at_gate_b, at_bm]
  rfl

/-- The second rectified stage at `(r, j)` is unit `j` of the second layer on row `r`. -/
theorem stage23 (r : Fin 65536) (j : Fin 1024) :
    val_main_v23 (F := Ideal) x0 x1 x2 x3 x4 x5 x6 (ix2 r j) = layer2 x0 x1 x2 x3 x4 x5 x6 r j := by
  rw [val_main_v23_apply, val_main_v22_apply, val_main_v19_apply, val_main_v21_apply, val_main_v20_apply,
    val_main_call1_v0_apply, val_main_call1_cst_apply, at_b2]
  simp only [val_main_v18_apply, at_h1, at_w2, stage17]
  rfl

/-- The last stage is the specification's result array. -/
theorem stage28 :
    val_main_v28 (F := Ideal) x0 x1 x2 x3 x4 x5 x6 x7 x8 = result x0 x1 x2 x3 x4 x5 x6 x7 x8 := by
  funext i
  obtain ⟨r, o, rfl⟩ : ∃ (r : Fin 65536) (o : Fin 2), i = ix2 r o := ⟨i 0, i 1, eq_ix2 i⟩
  rw [result_ix2, val_main_v28_apply, val_main_v25_apply, val_main_v27_apply, val_main_v26_apply, at_b3]
  simp only [val_main_v24_apply, at_h2, at_w3, stage23]
  rfl

end Cert.ReferenceIdeal.RefValue

end
-- ==== Proof.lean ====
/-
  A gated two-layer network on 65536 rows: the kernel and its reference compute the same array over the extended reals.

  Each input row carries ten gate weights, a scalar `delta` and a scalar `phi`. Both programs form
      h1 = max (delta * w1 + b1 + (phi * (gate · Wm) + gate · Bm), 0),   h2 = max (h1 · W2ᵀ + b2, 0),   result = h2 · W3ᵀ + b3,
  with the sums grouped the same way on both sides. The kernel works on 512 rows at a time with the weights laid out
  beforehand (bias vectors as one-row arrays, weight matrices transposed) and narrows its matrix operands to a 16-bit
  format; on the extended reals the narrowing is the identity and a matrix product into a zero accumulator is the plain
  sum over the contracted coordinate, which is also what the reference's contraction is. So both results are one
  function of the nine arguments (the specification's `result`), the kernel's because its 128 row blocks tile the
  array and each block is that function on its rows, the reference's by reading its operations one at a time. No law
  that could fail at an infinite value is used, so the finiteness of the inputs is not needed for the equality.

  The three frame claims are the generated frames (the reference's is its run with the result dropped), and the
  idealization rewrote nothing, so there is nothing to preserve.
-/
import proofs.«122144_j20744692040155_1_alg».proof.Defs
import proofs.«122144_j20744692040155_1_alg».proof.Proof.Gen.Kernel
import proofs.«122144_j20744692040155_1_alg».proof.Proof.Gen.Kernel.Skeleton
import proofs.«122144_j20744692040155_1_alg».proof.Proof.Gen.Kernel.Launch
import proofs.«122144_j20744692040155_1_alg».proof.Proof.Gen.Kernel.Points
import proofs.«122144_j20744692040155_1_alg».proof.Proof.Gen.Kernel.Frame
import proofs.«122144_j20744692040155_1_alg».proof.Proof.Gen.KernelIdeal
import proofs.«122144_j20744692040155_1_alg».proof.Proof.Gen.KernelIdeal.Skeleton
import proofs.«122144_j20744692040155_1_alg».proof.Proof.Gen.KernelIdeal.Launch
import proofs.«122144_j20744692040155_1_alg».proof.Proof.Gen.KernelIdeal.Points
import proofs.«122144_j20744692040155_1_alg».proof.Proof.Gen.KernelIdeal.Frame
import proofs.«122144_j20744692040155_1_alg».proof.Proof.Gen.ReferenceIdeal
import proofs.«122144_j20744692040155_1_alg».proof.Proof.Gen.Pre_finite_inputs
import proofs.«122144_j20744692040155_1_alg».proof.Proof.Gen.KernelIdeal.Value
import proofs.«122144_j20744692040155_1_alg».proof.Proof.Gen.ReferenceIdeal.Run
import proofs.«122144_j20744692040155_1_alg».proof.Proof.Gen.ReferenceIdeal.Read
import proofs.«122144_j20744692040155_1_alg».proof.Proof.KernelValue
import proofs.«122144_j20744692040155_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel's result array and the reference's are both the
    gated network's result of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v28_eq _ _ _ _ _ _ _ _ _).trans
    (Cert.ReferenceIdeal.RefValue.stage28 _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
